-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S64x160 : S_.BroadcastsInDim S64x160 (![] : Fin 0 → Fin S64x160.rank)
  reducesTo_S64x160_S_d0_1 : S64x160.ReducesTo [0, 1] S_

variable [Facts]

def fn_part2 {F : FTy → Type} [FloatOps F] (main_arg9 : FVec F S64x160 .f32) (main_arg10 : FVec F S64 .f32) (main_v33 : IVec S_ 1) : IVec S_ 1 :=
  let main_v34 : FVec F S64x160 .f32 := Host.absf main_arg9
  let main_cst_12 : FVec F S_ .f32 := constant S_ .f32 0x7F800000#32
  let main_v35 : FVec F S64x160 .f32 := broadcastInDim S64x160 ![] bcast_S_S64x160 main_cst_12
  let main_v36 : IVec S64x160 1 := cmpf .olt main_v34 main_v35
  let main_c_13 : IVec S_ 1 := constantI S_ 1 1#1
  let main_v37 : IVec S_ 1 := (fun x v => Host.reduce IntOp.andi x v reducesTo_S64x160_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S64 .f32) (main_arg9 : FVec F S64x160 .f32) (main_arg10 : FVec F S64 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : FVec F S100000x64 .f32) (main_arg2 : FVec F S1600000x32 .f32) (main_arg3 : IVec S1600000 32) (main_arg4 : IVec S1600000 32) (main_arg5 : FVec F S64x96 .f32) (main_arg6 : FVec F S64 .f32) (main_arg7 : FVec F S64x128 .f32) (main_arg8 : FVec F S64 .f32) (main_arg9 : FVec F S64x160 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S64x96 .f32 := Host.absf main_arg5
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩
abbrev S1600000x1 : Shape := ⟨2, ![1600000, 1]⟩
abbrev S1600000x64 : Shape := ⟨2, ![1600000, 64]⟩
abbrev S96x64 : Shape := ⟨2, ![96, 64]⟩
abbrev S1x64 : Shape := ⟨2, ![1, 64]⟩
abbrev S128x64 : Shape := ⟨2, ![128, 64]⟩
abbrev S160x64 : Shape := ⟨2, ![160, 64]⟩
abbrev S16000x64 : Shape := ⟨2, ![16000, 64]⟩
abbrev S16000x32 : Shape := ⟨2, ![16000, 32]⟩
abbrev S16000x96 : Shape := ⟨2, ![16000, 96]⟩
abbrev S100000 : Shape := ⟨1, ![100000]⟩
abbrev S100000x1 : Shape := ⟨2, ![100000, 1]⟩
abbrev S16000x160 : Shape := ⟨2, ![16000, 160]⟩
abbrev S10000x64 : Shape := ⟨2, ![10000, 64]⟩
abbrev S10000x128 : Shape := ⟨2, ![10000, 128]⟩

abbrev nBuf : Space → Nat
  | .hbm => 54
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000x32, .f32⟩
  | .hbm, ⟨3, _⟩ => ⟨S1600000, .i32⟩
  | .hbm, ⟨4, _⟩ => ⟨S1600000, .i32⟩
  | .hbm, ⟨5, _⟩ => ⟨S64x96, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x160, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S96x64, .f32⟩
  | .hbm, ⟨21, _⟩ => ⟨S1x64, .f32⟩
  | .hbm, ⟨22, _⟩ => ⟨S128x64, .f32⟩
  | .hbm, ⟨23, _⟩ => ⟨S1x64, .f32⟩
  | .hbm, ⟨24, _⟩ => ⟨S160x64, .f32⟩
  | .hbm, ⟨25, _⟩ => ⟨S1x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S100000x64, .f32⟩
  | .local _ .vmem, ⟨0, _⟩ => ⟨S16000x64, .f32⟩
  | .local _ .vmem, ⟨1, _⟩ => ⟨S16000x64, .f32⟩
  | .local _ .vmem, ⟨2, _⟩ => ⟨S16000x32, .f32⟩
  | .local _ .vmem, ⟨3, _⟩ => ⟨S16000x32, .f32⟩
  | .local _ .vmem, ⟨4, _⟩ => ⟨S96x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S16000x64, .f32⟩
  | .local _ .vmem, ⟨9, _⟩ => ⟨S16000x64, .f32⟩
  | .local _ .vmem, ⟨10, _⟩ => ⟨S16000x32, .f32⟩
  | .local _ .vmem, ⟨11, _⟩ => ⟨S16000x32, .f32⟩
  | .local _ .vmem, ⟨12, _⟩ => ⟨S16000x64, .f32⟩
  | .local _ .vmem, ⟨13, _⟩ => ⟨S16000x64, .f32⟩
  | .local _ .vmem, ⟨14, _⟩ => ⟨S160x64, .f32⟩
  | .local _ .vmem, ⟨15, _⟩ => ⟨S1x64, .f32⟩
  | .local _ .vmem, ⟨16, _⟩ => ⟨S16000x64, .f32⟩
  | .local _ .vmem, ⟨17, _⟩ => ⟨S16000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S128x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S160x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x96_S96x64_1_0 : S64x96.Transposes [1, 0] S96x64
  shapeCasts_S64_S1x64 : S64.ShapeCasts S1x64
  transposes_S64x128_S128x64_1_0 : S64x128.Transposes [1, 0] S128x64
  transposes_S64x160_S160x64_1_0 : S64x160.Transposes [1, 0] S160x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x32_S16000x32_0_0 : ∀ a, (![0, 0] : Fin 2 → Nat) a + S16000x32.size a ≤ S16000x32.size a
  h_S16000x32 : 0 < S16000x32.numel
  concatenates_S16000x64_S16000x32_S16000x96_d1 : Shape.Concatenates [S16000x64, S16000x32] S16000x96 1
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S16000x64_S16000x32_S16000x64_S16000x160_d1 : Shape.Concatenates [S16000x64, S16000x32, S16000x64] S16000x160 1
  inb_S160x64_S160x64_0_0 : ∀ a, (![0, 0] : Fin 2 → Nat) a + S160x64.size a ≤ S160x64.size a
  h_S160x64 : 0 < S160x64.numel
  shapeCasts_S160x64_S160x64 : S160x64.ShapeCasts S160x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S16000x96_S96x64_S16000x64_1_0_0_1_n_n_wf : DotDims.WF S16000x96 S96x64 S16000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S16000x160_S160x64_S16000x64_1_0_0_1_n_n_wf : DotDims.WF S16000x160 S160x64 S16000x64 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x64.size a ≤ S1600000x64.size a
  hwx0_4 : ∀ i : grid0.Coords, EltTy.bits .f32 = 32 ∨ (Rect.block (s := S1600000x64) S16000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x32.size a ≤ S1600000x32.size a
  hwx1_1 : ∀ i : grid1.Coords, EltTy.bits .f32 = 32 ∨ (Rect.block (s := S1600000x32) S16000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S1600000x64.size a
  hwx1_2 : ∀ i : grid1.Coords, EltTy.bits .f32 = 32 ∨ (Rect.block (s := S1600000x64) S16000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160x64.size a ≤ S160x64.size a
  hwx1_3 : ∀ i : grid1.Coords, EltTy.bits .f32 = 32 ∨ (Rect.block (s := S160x64) S160x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S1600000x64.size a
  hwx1_5 : ∀ i : grid1.Coords, EltTy.bits .f32 = 32 ∨ (Rect.block (s := S1600000x64) S16000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x96_S96x64_S16000x64_1_0_0_1_n_n : DotDims S16000x96 S96x64 S16000x64 where
  lhsContracting := [1]
  rhsContracting := [0]
  lhsNonContracting := [0]
  rhsNonContracting := [1]
  lhsBatch := []
  rhsBatch := []
  wf := dot_S16000x96_S96x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S16000x160_S160x64_S16000x64_1_0_0_1_n_n : DotDims S16000x160 S160x64 S16000x64 where
  lhsContracting := [1]
  rhsContracting := [0]
  lhsNonContracting := [0]
  rhsNonContracting := [1]
  lhsBatch := []
  rhsBatch := []
  wf := dot_S16000x160_S160x64_S16000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S16000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S16000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S160x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S16000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S96x64 : Shape := ⟨2, ![96, 64]⟩
abbrev S1x64 : Shape := ⟨2, ![1, 64]⟩
abbrev S100000 : Shape := ⟨1, ![100000]⟩
abbrev S100000x1 : Shape := ⟨2, ![100000, 1]⟩
abbrev S1600000x160 : Shape := ⟨2, ![1600000, 160]⟩
abbrev S160x64 : Shape := ⟨2, ![160, 64]⟩
abbrev S100000x128 : Shape := ⟨2, ![100000, 128]⟩
abbrev S128x64 : Shape := ⟨2, ![128, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000x32, .f32⟩
  | .hbm, ⟨3, _⟩ => ⟨S1600000, .i32⟩
  | .hbm, ⟨4, _⟩ => ⟨S1600000, .i32⟩
  | .hbm, ⟨5, _⟩ => ⟨S64x96, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x160, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x96, .f32⟩
  | .hbm, ⟨21, _⟩ => ⟨S96x64, .f32⟩
  | .hbm, ⟨22, _⟩ => ⟨S1600000x64, .f32⟩
  | .hbm, ⟨23, _⟩ => ⟨S1x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x160, .f32⟩
  | .hbm, ⟨55, _⟩ => ⟨S160x64, .f32⟩
  | .hbm, ⟨56, _⟩ => ⟨S1600000x64, .f32⟩
  | .hbm, ⟨57, _⟩ => ⟨S1x64, .f32⟩
  | .hbm, ⟨58, _⟩ => ⟨S1600000x64, .f32⟩
  | .hbm, ⟨59, _⟩ => ⟨S1600000x64, .f32⟩
  | .hbm, ⟨60, _⟩ => ⟨S100000x128, .f32⟩
  | .hbm, ⟨61, _⟩ => ⟨S128x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_cst : Ref sig .tc := ⟨.hbm, 26, rfl⟩
abbrev main_call0_v0 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  transposes_S64x96_S96x64_1_0 : S64x96.Transposes [1, 0] S96x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S1600000x64_S1600000x32_S1600000x64_S1600000x160_d1 : Shape.Concatenates [S1600000x64, S1600000x32, S1600000x64] S1600000x160 1
  transposes_S64x160_S160x64_1_0 : S64x160.Transposes [1, 0] S160x64
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S1600000x160_S160x64_S1600000x64_1_0_0_1_n_n_wf : DotDims.WF S1600000x160 S160x64 S1600000x64 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Dense.lean ====
/-
  Rows laid end to end, and one dense layer read row by row.

  Every kernel of this program, and every stage of the reference that it is compared with, has one shape: the rows
  of two or three matrices are laid end to end, the long row is multiplied into a weight matrix, and a bias row is
  added. What such a layer leaves at (row p, column q) depends only on row p of each input. This module states that
  dependence once, over plain functions on coordinates: `catRow2` / `catRow3` are a row of the concatenation from the
  rows of its pieces, `linRow` the product of a row with the weights plus the bias. The two lemmas read the printed
  `concatenate` along axis 1 at an index as such a row, whatever the number of rows; the block of rows a kernel point
  sees and the whole array the reference sees are both instances.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

variable {α : Type}

/-- Two rows laid end to end: position `k` below `n1` reads the first row, any later one the second row `n1` further down. -/
def catRow2 {n1 n2 K : Nat} (hK : n1 + n2 = K) (r1 : Fin n1 → α) (r2 : Fin n2 → α) (k : Fin K) : α :=
  if h : k.val < n1 then r1 ⟨k.val, h⟩ else r2 ⟨k.val - n1, by have := k.isLt; omega⟩

/-- Three rows laid end to end. -/
def catRow3 {n1 n2 n3 K : Nat} (hK : n1 + n2 + n3 = K) (r1 : Fin n1 → α) (r2 : Fin n2 → α) (r3 : Fin n3 → α) (k : Fin K) : α :=
  if h : k.val < n1 then r1 ⟨k.val, h⟩
  else if h2 : k.val < n1 + n2 then r2 ⟨k.val - n1, by omega⟩
  else r3 ⟨k.val - n1 - n2, by have := k.isLt; omega⟩

/-- A row times the weight matrix, at column `q`, plus the bias there: Σₖ row k · w (k, q) + b q on the extended reals. -/
def linRow {K C : Nat} (row : Fin K → EReal) (w : (⟨2, ![K, C]⟩ : Shape).Idx → EReal) (b : Fin C → EReal) (q : Fin C) : EReal :=
  (∑ k : Fin K, row k * w (ix2 k q)) + b q

/-- A vector as the one row of a one-row matrix. -/
def rowOf {C : Nat} (v : (⟨1, ![C]⟩ : Shape).Idx → α) : (⟨2, ![1, C]⟩ : Shape).Idx → α := fun i => v (ix1 (i 1))

theorem rowOf_apply {C : Nat} (v : (⟨1, ![C]⟩ : Shape).Idx → α) (u : Fin 1) (j : Fin C) : rowOf v (ix2 u j) = v (ix1 j) := rfl

/-- A vector reshaped to one row is that row. -/
theorem shapeCast_eq_rowOf {C : Nat} (v : (⟨1, ![C]⟩ : Shape).Idx → α) (h : (⟨1, ![C]⟩ : Shape).ShapeCasts ⟨2, ![1, C]⟩) :
    shapeCast ⟨2, ![1, C]⟩ v h = rowOf v := by
  funext i
  obtain ⟨u, j, rfl⟩ : ∃ (u : Fin 1) (j : Fin C), i = ix2 u j := ⟨i 0, i 1, eq_ix2 i⟩
  exact shapeCast_a_1a_apply v h u j

/-- The concatenation of two matrices along the columns, read at (p, k), is row p of the first laid before row p of the second. -/
theorem concatenate_row2 {R n1 n2 K : Nat} (hK : n1 + n2 = K)
    (x1 : (⟨2, ![R, n1]⟩ : Shape).Idx → α) (x2 : (⟨2, ![R, n2]⟩ : Shape).Idx → α)
    (h : Shape.Concatenates [⟨2, ![R, n1]⟩, ⟨2, ![R, n2]⟩] ⟨2, ![R, K]⟩ 1) (p : Fin R) (k : Fin K) :
    concatenate ⟨2, ![R, K]⟩ 1 [⟨⟨2, ![R, n1]⟩, x1⟩, ⟨⟨2, ![R, n2]⟩, x2⟩] h (ix2 p k)
      = catRow2 hK (fun c => x1 (ix2 p c)) (fun c => x2 (ix2 p c)) k := by
  unfold catRow2
  split
  · next hlt =>
    exact concatenate_pair_apply_left 1 x1 x2 h (ix2 p k) rfl (ix2 p ⟨k.val, hlt⟩)
      (fun b => match b with | ⟨0, _⟩ => rfl | ⟨1, _⟩ => rfl)
  · next hge =>
    have hk2 : k.val - n1 < n2 := by have := k.isLt; omega
    exact concatenate_pair_apply_right 1 x1 x2 h (ix2 p k) rfl rfl (ix2 p ⟨k.val - n1, hk2⟩)
      (fun b hb => match b, hb with
        | ⟨0, _⟩, _ => rfl
        | ⟨1, _⟩, hb => absurd rfl hb)
      (by show k.val - n1 + n1 = k.val; omega)

/-- The same for three matrices. -/
theorem concatenate_row3 {R n1 n2 n3 K : Nat} (hK : n1 + n2 + n3 = K)
    (x1 : (⟨2, ![R, n1]⟩ : Shape).Idx → α) (x2 : (⟨2, ![R, n2]⟩ : Shape).Idx → α) (x3 : (⟨2, ![R, n3]⟩ : Shape).Idx → α)
    (h : Shape.Concatenates [⟨2, ![R, n1]⟩, ⟨2, ![R, n2]⟩, ⟨2, ![R, n3]⟩] ⟨2, ![R, K]⟩ 1) (p : Fin R) (k : Fin K) :
    concatenate ⟨2, ![R, K]⟩ 1 [⟨⟨2, ![R, n1]⟩, x1⟩, ⟨⟨2, ![R, n2]⟩, x2⟩, ⟨⟨2, ![R, n3]⟩, x3⟩] h (ix2 p k)
      = catRow3 hK (fun c => x1 (ix2 p c)) (fun c => x2 (ix2 p c)) (fun c => x3 (ix2 p c)) k := by
  unfold catRow3
  let xs : List ((s : Shape) × (s.Idx → α)) := [⟨⟨2, ![R, n1]⟩, x1⟩, ⟨⟨2, ![R, n2]⟩, x2⟩, ⟨⟨2, ![R, n3]⟩, x3⟩]
  split
  · next hlt =>
    exact concatenate_apply_piece (t := ⟨2, ![R, K]⟩) 1 xs h (ix2 p k) 0 (by show 0 < 3; omega) _ x1 rfl rfl 0 rfl (ix2 p ⟨k.val, hlt⟩)
      (fun b hb => match b, hb with
        | ⟨0, _⟩, _ => rfl
        | ⟨1, _⟩, hb => absurd rfl hb)
      (by show 0 + k.val = k.val; omega)
  · next hge =>
    split
    · next hlt2 =>
      exact concatenate_apply_piece (t := ⟨2, ![R, K]⟩) 1 xs h (ix2 p k) 1 (by show 1 < 3; omega) _ x2 rfl rfl n1 rfl (ix2 p ⟨k.val - n1, by omega⟩)
        (fun b hb => match b, hb with
          | ⟨0, _⟩, _ => rfl
          | ⟨1, _⟩, hb => absurd rfl hb)
        (by show n1 + (k.val - n1) = k.val; omega)
    · next hge2 =>
      exact concatenate_apply_piece (t := ⟨2, ![R, K]⟩) 1 xs h (ix2 p k) 2 (by show 2 < 3; omega) _ x3 rfl rfl (n1 + n2) rfl
        (ix2 p ⟨k.val - n1 - n2, by have := k.isLt; omega⟩)
        (fun b hb => match b, hb with
          | ⟨0, _⟩, _ => rfl
          | ⟨1, _⟩, hb => absurd rfl hb)
        (by show n1 + n2 + (k.val - n1 - n2) = k.val; omega)

/-! ## A whole layer, array by array

The same layer over a matrix of `R` rows: entry (p, q) is `linRow` of row p. `R` is free, so that the block of rows one
grid point sees and the whole array are instances of one definition; the bias comes as the one-row matrix the
kernels stage. -/

/-- Two inputs side by side, times the weights, plus the bias row. -/
def dense2 {R n1 n2 K C : Nat} (hK : n1 + n2 = K) (x1 : (⟨2, ![R, n1]⟩ : Shape).Idx → EReal) (x2 : (⟨2, ![R, n2]⟩ : Shape).Idx → EReal)
    (w : (⟨2, ![K, C]⟩ : Shape).Idx → EReal) (b : (⟨2, ![1, C]⟩ : Shape).Idx → EReal) : (⟨2, ![R, C]⟩ : Shape).Idx → EReal :=
  fun i => linRow (catRow2 hK (fun c => x1 (ix2 (i 0) c)) (fun c => x2 (ix2 (i 0) c))) w (fun j => b (ix2 (0 : Fin 1) j)) (i 1)

/-- The same followed by the maximum with zero. -/
def denseRelu2 {R n1 n2 K C : Nat} (hK : n1 + n2 = K) (x1 : (⟨2, ![R, n1]⟩ : Shape).Idx → EReal) (x2 : (⟨2, ![R, n2]⟩ : Shape).Idx → EReal)
    (w : (⟨2, ![K, C]⟩ : Shape).Idx → EReal) (b : (⟨2, ![1, C]⟩ : Shape).Idx → EReal) : (⟨2, ![R, C]⟩ : Shape).Idx → EReal :=
  fun i => max (dense2 hK x1 x2 w b i) 0

/-- Three inputs side by side, times the weights, plus the bias row. -/
def dense3 {R n1 n2 n3 K C : Nat} (hK : n1 + n2 + n3 = K) (x1 : (⟨2, ![R, n1]⟩ : Shape).Idx → EReal) (x2 : (⟨2, ![R, n2]⟩ : Shape).Idx → EReal)
    (x3 : (⟨2, ![R, n3]⟩ : Shape).Idx → EReal) (w : (⟨2, ![K, C]⟩ : Shape).Idx → EReal) (b : (⟨2, ![1, C]⟩ : Shape).Idx → EReal) :
    (⟨2, ![R, C]⟩ : Shape).Idx → EReal :=
  fun i => linRow (catRow3 hK (fun c => x1 (ix2 (i 0) c)) (fun c => x2 (ix2 (i 0) c)) (fun c => x3 (ix2 (i 0) c))) w (fun j => b (ix2 (0 : Fin 1) j)) (i 1)

theorem dense2_apply {R n1 n2 K C : Nat} (hK : n1 + n2 = K) (x1 : (⟨2, ![R, n1]⟩ : Shape).Idx → EReal) (x2 : (⟨2, ![R, n2]⟩ : Shape).Idx → EReal)
    (w : (⟨2, ![K, C]⟩ : Shape).Idx → EReal) (b : (⟨2, ![1, C]⟩ : Shape).Idx → EReal) (p : Fin R) (q : Fin C) :
    dense2 hK x1 x2 w b (ix2 p q)
      = linRow (catRow2 hK (fun c => x1 (ix2 p c)) (fun c => x2 (ix2 p c))) w (fun j => b (ix2 (0 : Fin 1) j)) q := rfl

theorem denseRelu2_apply {R n1 n2 K C : Nat} (hK : n1 + n2 = K) (x1 : (⟨2, ![R, n1]⟩ : Shape).Idx → EReal) (x2 : (⟨2, ![R, n2]⟩ : Shape).Idx → EReal)
    (w : (⟨2, ![K, C]⟩ : Shape).Idx → EReal) (b : (⟨2, ![1, C]⟩ : Shape).Idx → EReal) (p : Fin R) (q : Fin C) :
    denseRelu2 hK x1 x2 w b (ix2 p q)
      = max (linRow (catRow2 hK (fun c => x1 (ix2 p c)) (fun c => x2 (ix2 p c))) w (fun j => b (ix2 (0 : Fin 1) j)) q) 0 := rfl

theorem dense3_apply {R n1 n2 n3 K C : Nat} (hK : n1 + n2 + n3 = K) (x1 : (⟨2, ![R, n1]⟩ : Shape).Idx → EReal) (x2 : (⟨2, ![R, n2]⟩ : Shape).Idx → EReal)
    (x3 : (⟨2, ![R, n3]⟩ : Shape).Idx → EReal) (w : (⟨2, ![K, C]⟩ : Shape).Idx → EReal) (b : (⟨2, ![1, C]⟩ : Shape).Idx → EReal) (p : Fin R) (q : Fin C) :
    dense3 hK x1 x2 x3 w b (ix2 p q)
      = linRow (catRow3 hK (fun c => x1 (ix2 p c)) (fun c => x2 (ix2 p c)) (fun c => x3 (ix2 p c))) w (fun j => b (ix2 (0 : Fin 1) j)) q := rfl

end Cert.Dense

end
-- ==== Proof.KernelPay.lean ====
/-
  What each kernel body computes, at one entry of its output block.

  Each of the three bodies loads its input blocks whole, lays their rows end to end, multiplies by the weight block
  into a zero accumulator, adds the one bias row to every row, and (the message kernel only) takes the maximum with
  zero. The narrowing of the operands to bf16 before the product is the identity on the extended reals. So the entry
  at (row p, column q) is `linRow` of the laid-out row p, the weights and the bias row, read at column q.
-/
import proofs.«136239_j83425444757686_1_alg».proof.Proof.Gen.KernelIdeal.Skeleton
import proofs.«136239_j83425444757686_1_alg».proof.Proof.Dense
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Cert.Dense
open Idealize.ShloMosaic Idealize.ShloMosaic.ValueIdx

/-! ### The matmul of kernel 0: rows of 96 against a 96 × 64 matrix -/

theorem lhs_mm0_0 (i : S16000x64.Idx) (q : dot_S16000x96_S96x64_S16000x64_1_0_0_1_n_n.contr.Idx) :
    (dot_S16000x96_S96x64_S16000x64_1_0_0_1_n_n.lhsIdx i q 0).val = (i 0).val := by
  unfold DotDims.lhsIdx
  rw [dif_neg (show ¬(0 : Fin S16000x96.rank) ∈ dot_S16000x96_S96x64_S16000x64_1_0_0_1_n_n.lhsBatch by decide), dif_pos (show (0 : Fin S16000x96.rank) ∈ dot_S16000x96_S96x64_S16000x64_1_0_0_1_n_n.lhsNonContracting by decide)]
  rfl
theorem lhs_mm0_1 (i : S16000x64.Idx) (q : dot_S16000x96_S96x64_S16000x64_1_0_0_1_n_n.contr.Idx) :
    (dot_S16000x96_S96x64_S16000x64_1_0_0_1_n_n.lhsIdx i q 1).val = (q ⟨0, by decide⟩).val :=
  dot_S16000x96_S96x64_S16000x64_1_0_0_1_n_n.lhsIdx_val_of_single rfl i q
theorem rhs_mm0_0 (i : S16000x64.Idx) (q : dot_S16000x96_S96x64_S16000x64_1_0_0_1_n_n.contr.Idx) :
    (dot_S16000x96_S96x64_S16000x64_1_0_0_1_n_n.rhsIdx i q 0).val = (q ⟨0, by decide⟩).val :=
  dot_S16000x96_S96x64_S16000x64_1_0_0_1_n_n.rhsIdx_val_of_single rfl i q
theorem rhs_mm0_1 (i : S16000x64.Idx) (q : dot_S16000x96_S96x64_S16000x64_1_0_0_1_n_n.contr.Idx) :
    (dot_S16000x96_S96x64_S16000x64_1_0_0_1_n_n.rhsIdx i q 1).val = (i 1).val := by
  unfold DotDims.rhsIdx
  rw [dif_neg (show ¬(1 : Fin S96x64.rank) ∈ dot_S16000x96_S96x64_S16000x64_1_0_0_1_n_n.rhsBatch by decide), dif_pos (show (1 : Fin S96x64.rank) ∈ dot_S16000x96_S96x64_S16000x64_1_0_0_1_n_n.rhsNonContracting by decide)]
  rfl

/-- Into the zero accumulator the product at (p, q) is the plain sum over the contracted axis: no rounding and no
    order is left at the extended reals. -/
theorem matmul0_apply (l : FVec Ideal S16000x96 .bf16) (r : FVec Ideal S96x64 .bf16) (p : Fin 16000) (q : Fin 64) :
    matmul dot_S16000x96_S96x64_S16000x64_1_0_0_1_n_n none l r (constant S16000x64 .f32 0x00000000#32) (ix2 p q)
      = ∑ k : Fin 96, l (ix2 p k) * r (ix2 k q) := by
  simp only [matmul]
  rw [Ideal.matmul_constant_zero_apply, ← Equiv.sum_comp (ValueIdx.contrEquiv1 dot_S16000x96_S96x64_S16000x64_1_0_0_1_n_n 96 rfl rfl).symm]
  refine Finset.sum_congr rfl fun k _ => ?_
  have hk := ValueIdx.contrEquiv1_symm_val dot_S16000x96_S96x64_S16000x64_1_0_0_1_n_n 96 rfl rfl k
  have el : dot_S16000x96_S96x64_S16000x64_1_0_0_1_n_n.lhsIdx (ix2 p q) ((ValueIdx.contrEquiv1 dot_S16000x96_S96x64_S16000x64_1_0_0_1_n_n 96 rfl rfl).symm k) = ix2 p k := funext fun a => Fin.ext (by
    match a with
    | ⟨0, _⟩ => exact lhs_mm0_0 _ _
    | ⟨1, _⟩ => exact (lhs_mm0_1 _ _).trans hk)
  have er : dot_S16000x96_S96x64_S16000x64_1_0_0_1_n_n.rhsIdx (ix2 p q) ((ValueIdx.contrEquiv1 dot_S16000x96_S96x64_S16000x64_1_0_0_1_n_n 96 rfl rfl).symm k) = ix2 k q := funext fun a => Fin.ext (by
    match a with
    | ⟨0, _⟩ => exact (rhs_mm0_0 _ _).trans hk
    | ⟨1, _⟩ => exact rhs_mm0_1 _ _)
  rw [el, er]

/-! ### The matmul of kernel 1: rows of 160 against a 160 × 64 matrix -/

theorem lhs_mm1_0 (i : S16000x64.Idx) (q : dot_S16000x160_S160x64_S16000x64_1_0_0_1_n_n.contr.Idx) :
    (dot_S16000x160_S160x64_S16000x64_1_0_0_1_n_n.lhsIdx i q 0).val = (i 0).val := by
  unfold DotDims.lhsIdx
  rw [dif_neg (show ¬(0 : Fin S16000x160.rank) ∈ dot_S16000x160_S160x64_S16000x64_1_0_0_1_n_n.lhsBatch by decide), dif_pos (show (0 : Fin S16000x160.rank) ∈ dot_S16000x160_S160x64_S16000x64_1_0_0_1_n_n.lhsNonContracting by decide)]
  rfl
theorem lhs_mm1_1 (i : S16000x64.Idx) (q : dot_S16000x160_S160x64_S16000x64_1_0_0_1_n_n.contr.Idx) :
    (dot_S16000x160_S160x64_S16000x64_1_0_0_1_n_n.lhsIdx i q 1).val = (q ⟨0, by decide⟩).val :=
  dot_S16000x160_S160x64_S16000x64_1_0_0_1_n_n.lhsIdx_val_of_single rfl i q
theorem rhs_mm1_0 (i : S16000x64.Idx) (q : dot_S16000x160_S160x64_S16000x64_1_0_0_1_n_n.contr.Idx) :
    (dot_S16000x160_S160x64_S16000x64_1_0_0_1_n_n.rhsIdx i q 0).val = (q ⟨0, by decide⟩).val :=
  dot_S16000x160_S160x64_S16000x64_1_0_0_1_n_n.rhsIdx_val_of_single rfl i q
theorem rhs_mm1_1 (i : S16000x64.Idx) (q : dot_S16000x160_S160x64_S16000x64_1_0_0_1_n_n.contr.Idx) :
    (dot_S16000x160_S160x64_S16000x64_1_0_0_1_n_n.rhsIdx i q 1).val = (i 1).val := by
  unfold DotDims.rhsIdx
  rw [dif_neg (show ¬(1 : Fin S160x64.rank) ∈ dot_S16000x160_S160x64_S16000x64_1_0_0_1_n_n.rhsBatch by decide), dif_pos (show (1 : Fin S160x64.rank) ∈ dot_S16000x160_S160x64_S16000x64_1_0_0_1_n_n.rhsNonContracting by decide)]
  rfl

/-- Into the zero accumulator the product at (p, q) is the plain sum over the contracted axis: no rounding and no
    order is left at the extended reals. -/
theorem matmul1_apply (l : FVec Ideal S16000x160 .bf16) (r : FVec Ideal S160x64 .bf16) (p : Fin 16000) (q : Fin 64) :
    matmul dot_S16000x160_S160x64_S16000x64_1_0_0_1_n_n none l r (constant S16000x64 .f32 0x00000000#32) (ix2 p q)
      = ∑ k : Fin 160, l (ix2 p k) * r (ix2 k q) := by
  simp only [matmul]
  rw [Ideal.matmul_constant_zero_apply, ← Equiv.sum_comp (ValueIdx.contrEquiv1 dot_S16000x160_S160x64_S16000x64_1_0_0_1_n_n 160 rfl rfl).symm]
  refine Finset.sum_congr rfl fun k _ => ?_
  have hk := ValueIdx.contrEquiv1_symm_val dot_S16000x160_S160x64_S16000x64_1_0_0_1_n_n 160 rfl rfl k
  have el : dot_S16000x160_S160x64_S16000x64_1_0_0_1_n_n.lhsIdx (ix2 p q) ((ValueIdx.contrEquiv1 dot_S16000x160_S160x64_S16000x64_1_0_0_1_n_n 160 rfl rfl).symm k) = ix2 p k := funext fun a => Fin.ext (by
    match a with
    | ⟨0, _⟩ => exact lhs_mm1_0 _ _
    | ⟨1, _⟩ => exact (lhs_mm1_1 _ _).trans hk)
  have er : dot_S16000x160_S160x64_S16000x64_1_0_0_1_n_n.rhsIdx (ix2 p q) ((ValueIdx.contrEquiv1 dot_S16000x160_S160x64_S16000x64_1_0_0_1_n_n 160 rfl rfl).symm k) = ix2 k q := funext fun a => Fin.ext (by
    match a with
    | ⟨0, _⟩ => exact (rhs_mm1_0 _ _).trans hk
    | ⟨1, _⟩ => exact rhs_mm1_1 _ _)
  rw [el, er]

/-! ### The matmul of kernel 2: rows of 128 against a 128 × 64 matrix -/

theorem lhs_mm2_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_mm2_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_mm2_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_mm2_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into the zero accumulator the product at (p, q) is the plain sum over the contracted axis: no rounding and no
    order is left at the extended reals. -/
theorem matmul2_apply (l : FVec Ideal S10000x128 .bf16) (r : FVec Ideal S128x64 .bf16) (p : Fin 10000) (q : Fin 64) :
    matmul dot_S10000x128_S128x64_S10000x64_1_0_0_1_n_n none l r (constant S10000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-! ### The payloads -/

theorem zero_word : Scalar.ofBits (F := Ideal) .f32 0x00000000#32 = (0 : EReal) := Ideal.ofBits_zero_f32

/-- The message kernel: max (row p of [x0 | x1] · x2 + x3, 0) at column q. -/
theorem pay0_apply (x0 : Vec Ideal S16000x64 .f32) (x1 : Vec Ideal S16000x32 .f32) (x2 : Vec Ideal S96x64 .f32) (x3 : Vec Ideal S1x64 .f32)
    (p : Fin 16000) (q : Fin 64) :
    k0_pay1 (F := Ideal) x0 x1 x2 x3 (ix2 p q)
      = max (linRow (catRow2 (show 64 + 32 = 96 from rfl) (fun c => x0 (ix2 p c)) (fun c => x1 (ix2 p c))) x2 (fun j => x3 (ix2 (0 : Fin 1) j)) q) 0 := by
  unfold k0_pay1
  rw [maximumf_apply, addf_apply, matmul0_apply, broadcastTo_1b_ab_apply, broadcast_apply, zero_word]
  simp only [shapeCast_self, truncf_apply]
  unfold linRow
  refine congrArg (fun z => max (z + x3 (ix2 (0 : Fin 1) q)) 0) (Finset.sum_congr rfl fun k _ => ?_)
  rw [concatenate_row2 (show 64 + 32 = 96 from rfl)]

/-- The edge kernel: row p of [x0 | x1 | x2] · x3 + x4 at column q. -/
theorem pay1_apply (x0 : Vec Ideal S16000x64 .f32) (x1 : Vec Ideal S16000x32 .f32) (x2 : Vec Ideal S16000x64 .f32) (x3 : Vec Ideal S160x64 .f32) (x4 : Vec Ideal S1x64 .f32)
    (p : Fin 16000) (q : Fin 64) :
    k1_pay1 (F := Ideal) x0 x1 x2 x3 x4 (ix2 p q)
      = linRow (catRow3 (show 64 + 32 + 64 = 160 from rfl) (fun c => x0 (ix2 p c)) (fun c => x1 (ix2 p c)) (fun c => x2 (ix2 p c))) x3 (fun j => x4 (ix2 (0 : Fin 1) j)) q := by
  unfold k1_pay1
  rw [addf_apply, matmul1_apply, broadcastTo_1b_ab_apply]
  simp only [shapeCast_self, truncf_apply]
  unfold linRow
  refine congrArg (fun z => z + x4 (ix2 (0 : Fin 1) q)) (Finset.sum_congr rfl fun k _ => ?_)
  rw [concatenate_row3 (show 64 + 32 + 64 = 160 from rfl)]

/-- The node kernel: row p of [x0 | x1] · x2 + x3 at column q. -/
theorem pay2_apply (x0 : Vec Ideal S10000x64 .f32) (x1 : Vec Ideal S10000x64 .f32) (x2 : Vec Ideal S128x64 .f32) (x3 : Vec Ideal S1x64 .f32)
    (p : Fin 10000) (q : Fin 64) :
    k2_pay1 (F := Ideal) x0 x1 x2 x3 (ix2 p q)
      = linRow (catRow2 (show 64 + 64 = 128 from rfl) (fun c => x0 (ix2 p c)) (fun c => x1 (ix2 p c))) x2 (fun j => x3 (ix2 (0 : Fin 1) j)) q := by
  unfold k2_pay1
  rw [addf_apply, matmul2_apply, broadcastTo_1b_ab_apply]
  simp only [shapeCast_self, truncf_apply]
  unfold linRow
  refine congrArg (fun z => z + x3 (ix2 (0 : Fin 1) q)) (Finset.sum_congr rfl fun k _ => ?_)
  rw [concatenate_row2 (show 64 + 64 = 128 from rfl)]

end Cert.KernelIdeal.Payload

end
-- ==== Proof.KernelBlocks.lean ====
/-
  What each region leaves in its output array, from the arrays it finds.

  A region is entered with the TensorCore's buffers at some contents `V`. Each grid point stages a block of rows of the
  row-wise inputs (rows R t … R t + R − 1 at point t) and the weight and bias arrays whole, runs the body, and writes its
  output block back to the same rows of the output array. The body's entry at (p, q) depends only on row p of its input
  blocks, which is row R t + p of the input arrays; so what point t writes back is block t of one whole-array function,
  the dense layer of the input arrays. The blocks tile the output array, hence the array ends at that function.
-/
import proofs.«136239_j83425444757686_1_alg».proof.Proof.Gen.KernelIdeal.Frame
import proofs.«136239_j83425444757686_1_alg».proof.Proof.KernelPay
import proofs.«136239_j83425444757686_1_alg».proof.Proof.Dense
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Payload Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the message kernel -/

/-- The printed index maps, decided over the 100 grid points: a row window's block index is (t, 0), a whole window's (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- Row p of window 0's block at point t is row 16000 t + p of its array. -/
theorem read0_0 (c : Dev nD) (t : Fin cfg0.N) (p : Fin 16000) (ht : t.val * 16000 + p.val < 1600000) (cc : Fin 64) :
    iblk0 V c 0 t (ix2 p cc) = V c main_v6 (ix2 (⟨t.val * 16000 + p.val, ht⟩ : Fin 1600000) cc) := by
  obtain ⟨e0, e1, -, -, -, -, -, -, -, -⟩ := idx_facts0 t
  show V c main_v6 (((cfg0.win 0).blk t).view.emb (ix2 p cc)) = V c main_v6 _
  refine congrArg (V c main_v6) ?_
  funext a; apply Fin.ext
  match a with
  | ⟨0, _⟩ => show win0_0.index t (0 : Fin 2) * 16000 + 1 * p.val = t.val * 16000 + p.val; rw [e0]; omega
  | ⟨1, _⟩ => show win0_0.index t (1 : Fin 2) * 64 + 1 * cc.val = cc.val; rw [e1]; omega

/-- Row p of window 1's block at point t is row 16000 t + p of its array. -/
theorem read0_1 (c : Dev nD) (t : Fin cfg0.N) (p : Fin 16000) (ht : t.val * 16000 + p.val < 1600000) (cc : Fin 32) :
    iblk0 V c 1 t (ix2 p cc) = V c main_arg2 (ix2 (⟨t.val * 16000 + p.val, ht⟩ : Fin 1600000) cc) := by
  obtain ⟨-, -, e0, e1, -, -, -, -, -, -⟩ := idx_facts0 t
  show V c main_arg2 (((cfg0.win 1).blk t).view.emb (ix2 p cc)) = V c main_arg2 _
  refine congrArg (V c main_arg2) ?_
  funext a; apply Fin.ext
  match a with
  | ⟨0, _⟩ => show win0_1.index t (0 : Fin 2) * 16000 + 1 * p.val = t.val * 16000 + p.val; rw [e0]; omega
  | ⟨1, _⟩ => show win0_1.index t (1 : Fin 2) * 32 + 1 * cc.val = cc.val; rw [e1]; omega

/-- Window 2's one block is its whole array, at every point. -/
theorem read0_2 (c : Dev nD) (t : Fin cfg0.N) : (iblk0 V c 2 t : Vec Ideal S96x64 .f32) = V c main_v7 := by
  obtain ⟨-, -, -, -, e0, e1, -, -, -, -⟩ := idx_facts0 t
  funext j
  show V c main_v7 (((cfg0.win 2).blk t).view.emb j) = V c main_v7 j
  refine congrArg (V c main_v7) ?_
  funext a; apply Fin.ext
  match a with
  | ⟨0, _⟩ => show win0_2.index t (0 : Fin 2) * 96 + 1 * (j 0).val = (j 0).val; rw [e0]; omega
  | ⟨1, _⟩ => show win0_2.index t (1 : Fin 2) * 64 + 1 * (j 1).val = (j 1).val; rw [e1]; omega

/-- Window 3's one block is its whole array, at every point. -/
theorem read0_3 (c : Dev nD) (t : Fin cfg0.N) : (iblk0 V c 3 t : Vec Ideal S1x64 .f32) = V c main_v8 := by
  obtain ⟨-, -, -, -, -, -, e0, e1, -, -⟩ := idx_facts0 t
  funext j
  show V c main_v8 (((cfg0.win 3).blk t).view.emb j) = V c main_v8 j
  refine congrArg (V c main_v8) ?_
  funext a; apply Fin.ext
  match a with
  | ⟨0, _⟩ => show win0_3.index t (0 : Fin 2) * 1 + 1 * (j 0).val = (j 0).val; rw [e0]; omega
  | ⟨1, _⟩ => show win0_3.index t (1 : Fin 2) * 64 + 1 * (j 1).val = (j 1).val; rw [e1]; omega

/-- What the message layer leaves in its output array: the layer of the arrays the region finds. -/
abbrev spec0 (c : Dev nD) : S1600000x64.Idx → EReal :=
  denseRelu2 (R := 1600000) (show 64 + 32 = 96 from rfl) (V c main_v6) (V c main_arg2) (V c main_v7) (V c main_v8)

/-- What point t writes back is block t of that array: the body's entry at (p, q) is the layer's entry at row
    16000 t + p, since the input blocks are the same rows of the input arrays. -/
theorem flushed0_eq (c : Dev nD) (t : Fin cfg0.N) :
    (dat0 V c).flushed 4 t = ((cfg0.win 4).blk t).view.read (Elt Ideal) (spec0 V c) := by
  show (cfg0.win 4).cut (grid0.coords t) ((dat0 V c).after 4 t) = _
  rw [after0_4]
  unfold out0_4
  rw [View.canon_unit_zero hz]
  simp only [View.ld_unit_zero (S := S16000x64) hz, View.ld_unit_zero (S := S16000x32) hz, View.ld_unit_zero (S := S96x64) hz, View.ld_unit_zero (S := S1x64) hz]
  funext j
  obtain ⟨p, q, rfl⟩ : ∃ (p : Fin 16000) (q : Fin 64), j = ix2 p q := ⟨j 0, j 1, eq_ix2 j⟩
  obtain ⟨-, -, -, -, -, -, -, -, e0, e1⟩ := idx_facts0 t
  have ht : t.val < 100 := t.isLt
  have hp : p.val < 16000 := p.isLt
  have hrow : t.val * 16000 + p.val < 1600000 := by omega
  have hemb : ((cfg0.win 4).blk t).view.emb (ix2 p q) = ix2 (⟨t.val * 16000 + p.val, hrow⟩ : Fin 1600000) q := by
    funext a; apply Fin.ext
    match a with
    | ⟨0, _⟩ => show win0_4.index t (0 : Fin 2) * 16000 + 1 * p.val = t.val * 16000 + p.val; rw [e0]; omega
    | ⟨1, _⟩ => show win0_4.index t (1 : Fin 2) * 64 + 1 * q.val = q.val; rw [e1]; omega
  show k0_pay1 (iblk0 V c 0 t) (iblk0 V c 1 t) (iblk0 V c 2 t) (iblk0 V c 3 t) (ix2 p q) = spec0 V c (((cfg0.win 4).blk t).view.emb (ix2 p q))
  rw [hemb]
  refine (pay0_apply (iblk0 V c 0 t) (iblk0 V c 1 t) (iblk0 V c 2 t) (iblk0 V c 3 t) p q).trans ?_
  show _ = max (linRow (catRow2 (show 64 + 32 = 96 from rfl) (fun cc => V c main_v6 (ix2 (⟨t.val * 16000 + p.val, hrow⟩ : Fin 1600000) cc)) (fun cc => V c main_arg2 (ix2 (⟨t.val * 16000 + p.val, hrow⟩ : Fin 1600000) cc))) (V c main_v7) (fun j => V c main_v8 (ix2 (0 : Fin 1) j)) q) 0
  rw [read0_2 V c t, read0_3 V c t]
  simp only [read0_0 V c t p hrow, read0_1 V c t p hrow]

/-- An index of the output array is in point t's block iff each coordinate is in the block's range on its axis. -/
theorem mem_blk0 (t : Fin cfg0.N) (i : S1600000x64.Idx) :
    i ∈ ((cfg0.win 4).blk t).view.set ↔ ∀ a : Fin 2, win0_4.index t a * S16000x64.size a ≤ (i a).val ∧ (i a).val < win0_4.index t a * S16000x64.size a + S16000x64.size a := by
  show i ∈ ((View.whole main_v13).slice (win0_4.rect t)).set ↔ _
  rw [View.set_slice_whole, Rect.mem_set_unit]
  exact Iff.rfl

/-- Every row of the output array lies in the block of the point that is its number divided by 16000. -/
theorem cover0 (i : S1600000x64.Idx) : ∃ t : Fin cfg0.N, (cfg0.win 4).flush t = true ∧ i ∈ ((cfg0.win 4).blk t).view.set := by
  have hi0 : (i 0).val < 1600000 := (i 0).isLt
  have hi1 : (i 1).val < 64 := (i 1).isLt
  have htlt : (i 0).val / 16000 < 100 := by omega
  obtain ⟨-, -, -, -, -, -, -, -, e0, e1⟩ := idx_facts0 (⟨(i 0).val / 16000, htlt⟩ : Fin cfg0.N)
  refine ⟨⟨(i 0).val / 16000, htlt⟩, flush0_4 _, ?_⟩
  rw [mem_blk0]
  intro a
  match a with
  | ⟨0, _⟩ =>
    show win0_4.index ⟨(i 0).val / 16000, htlt⟩ (0 : Fin 2) * 16000 ≤ (i 0).val ∧ (i 0).val < win0_4.index ⟨(i 0).val / 16000, htlt⟩ (0 : Fin 2) * 16000 + 16000
    rw [e0]; show (i 0).val / 16000 * 16000 ≤ (i 0).val ∧ (i 0).val < (i 0).val / 16000 * 16000 + 16000; omega
  | ⟨1, _⟩ =>
    show win0_4.index ⟨(i 0).val / 16000, htlt⟩ (1 : Fin 2) * 64 ≤ (i 1).val ∧ (i 1).val < win0_4.index ⟨(i 0).val / 16000, htlt⟩ (1 : Fin 2) * 64 + 64
    rw [e1]; omega

/-- The message layer's output array after the region: the layer of the arrays the region finds, whole. -/
theorem final0 (c : Dev nD) : (dat0 V c).arrAt 4 cfg0.N = spec0 V c :=
  (dat0 V c).arrAt_eq_of_cover 4 _ (fun t _ => flushed0_eq V c t) (cover0)

/-! ## Region 1: the edge kernel -/

/-- The printed index maps, decided over the 100 grid points: a row window's block index is (t, 0), a whole window's (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row p of window 0's block at point t is row 16000 t + p of its array. -/
theorem read1_0 (c : Dev nD) (t : Fin cfg1.N) (p : Fin 16000) (ht : t.val * 16000 + p.val < 1600000) (cc : Fin 64) :
    iblk1 V c 0 t (ix2 p cc) = V c main_v6 (ix2 (⟨t.val * 16000 + p.val, ht⟩ : Fin 1600000) cc) := by
  obtain ⟨e0, e1, -, -, -, -, -, -, -, -, -, -⟩ := idx_facts1 t
  show V c main_v6 (((cfg1.win 0).blk t).view.emb (ix2 p cc)) = V c main_v6 _
  refine congrArg (V c main_v6) ?_
  funext a; apply Fin.ext
  match a with
  | ⟨0, _⟩ => show win1_0.index t (0 : Fin 2) * 16000 + 1 * p.val = t.val * 16000 + p.val; rw [e0]; omega
  | ⟨1, _⟩ => show win1_0.index t (1 : Fin 2) * 64 + 1 * cc.val = cc.val; rw [e1]; omega

/-- Row p of window 1's block at point t is row 16000 t + p of its array. -/
theorem read1_1 (c : Dev nD) (t : Fin cfg1.N) (p : Fin 16000) (ht : t.val * 16000 + p.val < 1600000) (cc : Fin 32) :
    iblk1 V c 1 t (ix2 p cc) = V c main_arg2 (ix2 (⟨t.val * 16000 + p.val, ht⟩ : Fin 1600000) cc) := by
  obtain ⟨-, -, e0, e1, -, -, -, -, -, -, -, -⟩ := idx_facts1 t
  show V c main_arg2 (((cfg1.win 1).blk t).view.emb (ix2 p cc)) = V c main_arg2 _
  refine congrArg (V c main_arg2) ?_
  funext a; apply Fin.ext
  match a with
  | ⟨0, _⟩ => show win1_1.index t (0 : Fin 2) * 16000 + 1 * p.val = t.val * 16000 + p.val; rw [e0]; omega
  | ⟨1, _⟩ => show win1_1.index t (1 : Fin 2) * 32 + 1 * cc.val = cc.val; rw [e1]; omega

/-- Row p of window 2's block at point t is row 16000 t + p of its array. -/
theorem read1_2 (c : Dev nD) (t : Fin cfg1.N) (p : Fin 16000) (ht : t.val * 16000 + p.val < 1600000) (cc : Fin 64) :
    iblk1 V c 2 t (ix2 p cc) = V c main_v32 (ix2 (⟨t.val * 16000 + p.val, ht⟩ : Fin 1600000) cc) := by
  obtain ⟨-, -, -, -, e0, e1, -, -, -, -, -, -⟩ := idx_facts1 t
  show V c main_v32 (((cfg1.win 2).blk t).view.emb (ix2 p cc)) = V c main_v32 _
  refine congrArg (V c main_v32) ?_
  funext a; apply Fin.ext
  match a with
  | ⟨0, _⟩ => show win1_2.index t (0 : Fin 2) * 16000 + 1 * p.val = t.val * 16000 + p.val; rw [e0]; omega
  | ⟨1, _⟩ => show win1_2.index t (1 : Fin 2) * 64 + 1 * cc.val = cc.val; rw [e1]; omega

/-- Window 3's one block is its whole array, at every point. -/
theorem read1_3 (c : Dev nD) (t : Fin cfg1.N) : (iblk1 V c 3 t : Vec Ideal S160x64 .f32) = V c main_v11 := by
  obtain ⟨-, -, -, -, -, -, e0, e1, -, -, -, -⟩ := idx_facts1 t
  funext j
  show V c main_v11 (((cfg1.win 3).blk t).view.emb j) = V c main_v11 j
  refine congrArg (V c main_v11) ?_
  funext a; apply Fin.ext
  match a with
  | ⟨0, _⟩ => show win1_3.index t (0 : Fin 2) * 160 + 1 * (j 0).val = (j 0).val; rw [e0]; omega
  | ⟨1, _⟩ => show win1_3.index t (1 : Fin 2) * 64 + 1 * (j 1).val = (j 1).val; rw [e1]; omega

/-- Window 4's one block is its whole array, at every point. -/
theorem read1_4 (c : Dev nD) (t : Fin cfg1.N) : (iblk1 V c 4 t : Vec Ideal S1x64 .f32) = V c main_v12 := by
  obtain ⟨-, -, -, -, -, -, -, -, e0, e1, -, -⟩ := idx_facts1 t
  funext j
  show V c main_v12 (((cfg1.win 4).blk t).view.emb j) = V c main_v12 j
  refine congrArg (V c main_v12) ?_
  funext a; apply Fin.ext
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega

/-- What the edge layer leaves in its output array: the layer of the arrays the region finds. -/
abbrev spec1 (c : Dev nD) : S1600000x64.Idx → EReal :=
  dense3 (R := 1600000) (show 64 + 32 + 64 = 160 from rfl) (V c main_v6) (V c main_arg2) (V c main_v32) (V c main_v11) (V c main_v12)

/-- What point t writes back is block t of that array: the body's entry at (p, q) is the layer's entry at row
    16000 t + p, since the input blocks are the same rows of the input arrays. -/
theorem flushed1_eq (c : Dev nD) (t : Fin cfg1.N) :
    (dat1 V c).flushed 5 t = ((cfg1.win 5).blk t).view.read (Elt Ideal) (spec1 V c) := by
  show (cfg1.win 5).cut (grid1.coords t) ((dat1 V c).after 5 t) = _
  rw [after1_5]
  unfold out1_5
  rw [View.canon_unit_zero hz]
  simp only [View.ld_unit_zero (S := S16000x64) hz, View.ld_unit_zero (S := S16000x32) hz, View.ld_unit_zero (S := S160x64) hz, View.ld_unit_zero (S := S1x64) hz]
  funext j
  obtain ⟨p, q, rfl⟩ : ∃ (p : Fin 16000) (q : Fin 64), j = ix2 p q := ⟨j 0, j 1, eq_ix2 j⟩
  obtain ⟨-, -, -, -, -, -, -, -, -, -, e0, e1⟩ := idx_facts1 t
  have ht : t.val < 100 := t.isLt
  have hp : p.val < 16000 := p.isLt
  have hrow : t.val * 16000 + p.val < 1600000 := by omega
  have hemb : ((cfg1.win 5).blk t).view.emb (ix2 p q) = ix2 (⟨t.val * 16000 + p.val, hrow⟩ : Fin 1600000) q := by
    funext a; apply Fin.ext
    match a with
    | ⟨0, _⟩ => show win1_5.index t (0 : Fin 2) * 16000 + 1 * p.val = t.val * 16000 + p.val; rw [e0]; omega
    | ⟨1, _⟩ => show win1_5.index t (1 : Fin 2) * 64 + 1 * q.val = q.val; rw [e1]; omega
  show k1_pay1 (iblk1 V c 0 t) (iblk1 V c 1 t) (iblk1 V c 2 t) (iblk1 V c 3 t) (iblk1 V c 4 t) (ix2 p q) = spec1 V c (((cfg1.win 5).blk t).view.emb (ix2 p q))
  rw [hemb]
  refine (pay1_apply (iblk1 V c 0 t) (iblk1 V c 1 t) (iblk1 V c 2 t) (iblk1 V c 3 t) (iblk1 V c 4 t) p q).trans ?_
  show _ = linRow (catRow3 (show 64 + 32 + 64 = 160 from rfl) (fun cc => V c main_v6 (ix2 (⟨t.val * 16000 + p.val, hrow⟩ : Fin 1600000) cc)) (fun cc => V c main_arg2 (ix2 (⟨t.val * 16000 + p.val, hrow⟩ : Fin 1600000) cc)) (fun cc => V c main_v32 (ix2 (⟨t.val * 16000 + p.val, hrow⟩ : Fin 1600000) cc))) (V c main_v11) (fun j => V c main_v12 (ix2 (0 : Fin 1) j)) q
  rw [read1_3 V c t, read1_4 V c t]
  simp only [read1_0 V c t p hrow, read1_1 V c t p hrow, read1_2 V c t p hrow]

/-- An index of the output array is in point t's block iff each coordinate is in the block's range on its axis. -/
theorem mem_blk1 (t : Fin cfg1.N) (i : S1600000x64.Idx) :
    i ∈ ((cfg1.win 5).blk t).view.set ↔ ∀ a : Fin 2, win1_5.index t a * S16000x64.size a ≤ (i a).val ∧ (i a).val < win1_5.index t a * S16000x64.size a + S16000x64.size a := by
  show i ∈ ((View.whole main_v33).slice (win1_5.rect t)).set ↔ _
  rw [View.set_slice_whole, Rect.mem_set_unit]
  exact Iff.rfl

/-- Every row of the output array lies in the block of the point that is its number divided by 16000. -/
theorem cover1 (i : S1600000x64.Idx) : ∃ t : Fin cfg1.N, (cfg1.win 5).flush t = true ∧ i ∈ ((cfg1.win 5).blk t).view.set := by
  have hi0 : (i 0).val < 1600000 := (i 0).isLt
  have hi1 : (i 1).val < 64 := (i 1).isLt
  have htlt : (i 0).val / 16000 < 100 := by omega
  obtain ⟨-, -, -, -, -, -, -, -, -, -, e0, e1⟩ := idx_facts1 (⟨(i 0).val / 16000, htlt⟩ : Fin cfg1.N)
  refine ⟨⟨(i 0).val / 16000, htlt⟩, flush1_5 _, ?_⟩
  rw [mem_blk1]
  intro a
  match a with
  | ⟨0, _⟩ =>
    show win1_5.index ⟨(i 0).val / 16000, htlt⟩ (0 : Fin 2) * 16000 ≤ (i 0).val ∧ (i 0).val < win1_5.index ⟨(i 0).val / 16000, htlt⟩ (0 : Fin 2) * 16000 + 16000
    rw [e0]; show (i 0).val / 16000 * 16000 ≤ (i 0).val ∧ (i 0).val < (i 0).val / 16000 * 16000 + 16000; omega
  | ⟨1, _⟩ =>
    show win1_5.index ⟨(i 0).val / 16000, htlt⟩ (1 : Fin 2) * 64 ≤ (i 1).val ∧ (i 1).val < win1_5.index ⟨(i 0).val / 16000, htlt⟩ (1 : Fin 2) * 64 + 64
    rw [e1]; omega

/-- The edge layer's output array after the region: the layer of the arrays the region finds, whole. -/
theorem final1 (c : Dev nD) : (dat1 V c).arrAt 5 cfg1.N = spec1 V c :=
  (dat1 V c).arrAt_eq_of_cover 5 _ (fun t _ => flushed1_eq V c t) (cover1)

/-! ## Region 2: the node kernel -/

/-- The printed index maps, decided over the 10 grid points: a row window's block index is (t, 0), a whole window's (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Row p of window 0's block at point t is row 10000 t + p of its array. -/
theorem read2_0 (c : Dev nD) (t : Fin cfg2.N) (p : Fin 10000) (ht : t.val * 10000 + p.val < 100000) (cc : Fin 64) :
    iblk2 V c 0 t (ix2 p cc) = V c main_arg1 (ix2 (⟨t.val * 10000 + p.val, ht⟩ : Fin 100000) cc) := by
  obtain ⟨e0, e1, -, -, -, -, -, -, -, -⟩ := idx_facts2 t
  show V c main_arg1 (((cfg2.win 0).blk t).view.emb (ix2 p cc)) = V c main_arg1 _
  refine congrArg (V c main_arg1) ?_
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * cc.val = cc.val; rw [e1]; omega

/-- Row p of window 1's block at point t is row 10000 t + p of its array. -/
theorem read2_1 (c : Dev nD) (t : Fin cfg2.N) (p : Fin 10000) (ht : t.val * 10000 + p.val < 100000) (cc : Fin 64) :
    iblk2 V c 1 t (ix2 p cc) = V c main_v25 (ix2 (⟨t.val * 10000 + p.val, ht⟩ : Fin 100000) cc) := by
  obtain ⟨-, -, e0, e1, -, -, -, -, -, -⟩ := idx_facts2 t
  show V c main_v25 (((cfg2.win 1).blk t).view.emb (ix2 p cc)) = V c main_v25 _
  refine congrArg (V c main_v25) ?_
  funext a; apply Fin.ext
  match a with
  | ⟨0, _⟩ => show win2_1.index t (0 : Fin 2) * 10000 + 1 * p.val = t.val * 10000 + p.val; rw [e0]; omega
  | ⟨1, _⟩ => show win2_1.index t (1 : Fin 2) * 64 + 1 * cc.val = cc.val; rw [e1]; omega

/-- Window 2's one block is its whole array, at every point. -/
theorem read2_2 (c : Dev nD) (t : Fin cfg2.N) : (iblk2 V c 2 t : Vec Ideal S128x64 .f32) = V c main_v9 := by
  obtain ⟨-, -, -, -, e0, e1, -, -, -, -⟩ := idx_facts2 t
  funext j
  show V c main_v9 (((cfg2.win 2).blk t).view.emb j) = V c main_v9 j
  refine congrArg (V c main_v9) ?_
  funext a; apply Fin.ext
  match a with
  | ⟨0, _⟩ => show win2_2.index t (0 : Fin 2) * 128 + 1 * (j 0).val = (j 0).val; rw [e0]; omega
  | ⟨1, _⟩ => show win2_2.index t (1 : Fin 2) * 64 + 1 * (j 1).val = (j 1).val; rw [e1]; omega

/-- Window 3's one block is its whole array, at every point. -/
theorem read2_3 (c : Dev nD) (t : Fin cfg2.N) : (iblk2 V c 3 t : Vec Ideal S1x64 .f32) = V c main_v10 := by
  obtain ⟨-, -, -, -, -, -, e0, e1, -, -⟩ := idx_facts2 t
  funext j
  show V c main_v10 (((cfg2.win 3).blk t).view.emb j) = V c main_v10 j
  refine congrArg (V c main_v10) ?_
  funext a; apply Fin.ext
  match a with
  | ⟨0, _⟩ => show win2_3.index t (0 : Fin 2) * 1 + 1 * (j 0).val = (j 0).val; rw [e0]; omega
  | ⟨1, _⟩ => show win2_3.index t (1 : Fin 2) * 64 + 1 * (j 1).val = (j 1).val; rw [e1]; omega

/-- What the node layer leaves in its output array: the layer of the arrays the region finds. -/
abbrev spec2 (c : Dev nD) : S100000x64.Idx → EReal :=
  dense2 (R := 100000) (show 64 + 64 = 128 from rfl) (V c main_arg1) (V c main_v25) (V c main_v9) (V c main_v10)

/-- What point t writes back is block t of that array: the body's entry at (p, q) is the layer's entry at row
    10000 t + p, since the input blocks are the same rows of the input arrays. -/
theorem flushed2_eq (c : Dev nD) (t : Fin cfg2.N) :
    (dat2 V c).flushed 4 t = ((cfg2.win 4).blk t).view.read (Elt Ideal) (spec2 V c) := by
  show (cfg2.win 4).cut (grid2.coords t) ((dat2 V c).after 4 t) = _
  rw [after2_4]
  unfold out2_4
  rw [View.canon_unit_zero hz]
  simp only [View.ld_unit_zero (S := S10000x64) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, e0, e1⟩ := idx_facts2 t
  have ht : t.val < 10 := t.isLt
  have hp : p.val < 10000 := p.isLt
  have hrow : t.val * 10000 + p.val < 100000 := by omega
  have hemb : ((cfg2.win 4).blk t).view.emb (ix2 p q) = ix2 (⟨t.val * 10000 + p.val, hrow⟩ : Fin 100000) q := by
    funext a; apply Fin.ext
    match a with
    | ⟨0, _⟩ => show win2_4.index t (0 : Fin 2) * 10000 + 1 * p.val = t.val * 10000 + p.val; rw [e0]; omega
    | ⟨1, _⟩ => show win2_4.index t (1 : Fin 2) * 64 + 1 * q.val = q.val; rw [e1]; omega
  show k2_pay1 (iblk2 V c 0 t) (iblk2 V c 1 t) (iblk2 V c 2 t) (iblk2 V c 3 t) (ix2 p q) = spec2 V c (((cfg2.win 4).blk t).view.emb (ix2 p q))
  rw [hemb]
  refine (pay2_apply (iblk2 V c 0 t) (iblk2 V c 1 t) (iblk2 V c 2 t) (iblk2 V c 3 t) p q).trans ?_
  show _ = linRow (catRow2 (show 64 + 64 = 128 from rfl) (fun cc => V c main_arg1 (ix2 (⟨t.val * 10000 + p.val, hrow⟩ : Fin 100000) cc)) (fun cc => V c main_v25 (ix2 (⟨t.val * 10000 + p.val, hrow⟩ : Fin 100000) cc))) (V c main_v9) (fun j => V c main_v10 (ix2 (0 : Fin 1) j)) q
  rw [read2_2 V c t, read2_3 V c t]
  simp only [read2_0 V c t p hrow, read2_1 V c t p hrow]

/-- An index of the output array is in point t's block iff each coordinate is in the block's range on its axis. -/
theorem mem_blk2 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v34).slice (win2_4.rect t)).set ↔ _
  rw [View.set_slice_whole, Rect.mem_set_unit]
  exact Iff.rfl

/-- Every row of the output array lies in the block of the point that is its number divided by 10000. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have htlt : (i 0).val / 10000 < 10 := by omega
  obtain ⟨-, -, -, -, -, -, -, -, e0, e1⟩ := idx_facts2 (⟨(i 0).val / 10000, htlt⟩ : Fin cfg2.N)
  refine ⟨⟨(i 0).val / 10000, htlt⟩, flush2_4 _, ?_⟩
  rw [mem_blk2]
  intro a
  match a with
  | ⟨0, _⟩ =>
    show win2_4.index ⟨(i 0).val / 10000, htlt⟩ (0 : Fin 2) * 10000 ≤ (i 0).val ∧ (i 0).val < win2_4.index ⟨(i 0).val / 10000, htlt⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, htlt⟩ (1 : Fin 2) * 64 ≤ (i 1).val ∧ (i 1).val < win2_4.index ⟨(i 0).val / 10000, htlt⟩ (1 : Fin 2) * 64 + 64
    rw [e1]; omega

/-- The node layer's output array after the region: the layer of the arrays the region finds, whole. -/
theorem final2 (c : Dev nD) : (dat2 V c).arrAt 4 cfg2.N = spec2 V c :=
  (dat2 V c).arrAt_eq_of_cover 4 _ (fun t _ => flushed2_eq V c t) (cover2)

end Cert.KernelIdeal.Blocks

end
-- ==== Proof.Chain.lean ====
/-
  The host operations the kernel's program and the reference share, and the whole network over them.

  Both programs gather the rows of the node table named by an index vector (a negative index counted from the end,
  as array indexing does), and both turn the per-edge messages into a per-node mean: the messages are added into the
  row of their destination node, the edges into each node are counted, the count is raised to at least one, and the
  sums are divided by it. Neither is opened here: a gather and a scatter-add are taken as they are printed, and both
  programs apply the same ones to the same operands. With the dense layers between them these give the two results
  of the network as functions of the eleven arguments: what the node update and the edge update must end holding.
-/
import proofs.«136239_j83425444757686_1_alg».proof.Proof.Gen.KernelIdeal
import proofs.«136239_j83425444757686_1_alg».proof.Proof.Dense

noncomputable section

namespace Cert.KernelIdeal.Chain

open Cert.KernelIdeal Cert.KernelIdeal.Gen Cert.Dense
open Idealize.ShloMosaic

/-- An index vector as the gather takes it: a negative entry has the table's 100000 rows added, and the vector
    becomes one column. -/
def wrapIdx (a : (⟨S1600000, .i32⟩ : BufTy).Contents (Elt Ideal)) : (⟨S1600000x1, .i32⟩ : BufTy).Contents (Elt Ideal) :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The rows of a node table named by an index vector, one per edge. -/
def rowsAt (x : (⟨S100000x64, .f32⟩ : BufTy).Contents (Elt Ideal)) (a : (⟨S1600000, .i32⟩ : BufTy).Contents (Elt Ideal)) :
    (⟨S1600000x64, .f32⟩ : BufTy).Contents (Elt Ideal) :=
  Host.gather gather_S100000x64_S1600000x1_S1600000x64_1_0_n_n_0_1_164 x (wrapIdx a)

/-- The mean of the per-edge rows `M` over the edges into each node (zero for a node no edge enters: the count is
    raised to one). -/
def meanAt (a : (⟨S1600000, .i32⟩ : BufTy).Contents (Elt Ideal)) (M : (⟨S1600000x64, .f32⟩ : BufTy).Contents (Elt Ideal)) :
    (⟨S100000x64, .f32⟩ : BufTy).Contents (Elt Ideal) :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 a) M)
    (broadcastInDim S100000x64 ![0, 1] bcast_S100000x1_S100000x64_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 a)
            (broadcastInDim S1600000 ![] bcast_S_S1600000 (constant (F := Ideal) S_ .f32 0x3F800000#32)))
          (broadcastInDim S100000 ![] bcast_S_S100000 (constant (F := Ideal) S_ .f32 0x3F800000#32)))))

section Network

variable (a0 a1 : (⟨S100000x64, .f32⟩ : BufTy).Contents (Elt Ideal)) (a2 : (⟨S1600000x32, .f32⟩ : BufTy).Contents (Elt Ideal))
  (a3 a4 : (⟨S1600000, .i32⟩ : BufTy).Contents (Elt Ideal))
  (a5 : (⟨S64x96, .f32⟩ : BufTy).Contents (Elt Ideal)) (a6 : (⟨S64, .f32⟩ : BufTy).Contents (Elt Ideal))
  (a7 : (⟨S64x128, .f32⟩ : BufTy).Contents (Elt Ideal)) (a8 : (⟨S64, .f32⟩ : BufTy).Contents (Elt Ideal))
  (a9 : (⟨S64x160, .f32⟩ : BufTy).Contents (Elt Ideal)) (a10 : (⟨S64, .f32⟩ : BufTy).Contents (Elt Ideal))

/-- The messages: max ([source features | edge features] · W_msgᵀ + b_msg, 0), one row per edge. -/
def msgs : (⟨S1600000x64, .f32⟩ : BufTy).Contents (Elt Ideal) :=
  denseRelu2 (R := 1600000) (show 64 + 32 = 96 from rfl) (rowsAt a0 a3) a2 (transpose S96x64 [1, 0] a5 transposes_S64x96_S96x64_1_0) (rowOf a6)

/-- The neighbourhood feature of each node: the mean of the messages on its incoming edges. -/
def hNeigh : (⟨S100000x64, .f32⟩ : BufTy).Contents (Elt Ideal) :=
  meanAt a4 (msgs a0 a2 a3 a5 a6)

/-- The edge update: [source features | edge features | neighbourhood feature of the destination] · W_edgeᵀ + b_edge. -/
def edgeOut : (⟨S1600000x64, .f32⟩ : BufTy).Contents (Elt Ideal) :=
  dense3 (R := 1600000) (show 64 + 32 + 64 = 160 from rfl) (rowsAt a0 a3) a2 (rowsAt (hNeigh a0 a2 a3 a4 a5 a6) a4)
    (transpose S160x64 [1, 0] a9 transposes_S64x160_S160x64_1_0) (rowOf a10)

/-- The node update: [destination features | neighbourhood feature] · W_applyᵀ + b_apply. -/
def nodeOut : (⟨S100000x64, .f32⟩ : BufTy).Contents (Elt Ideal) :=
  dense2 (R := 100000) (show 64 + 64 = 128 from rfl) a1 (hNeigh a0 a2 a3 a4 a5 a6)
    (transpose S128x64 [1, 0] a7 transposes_S64x128_S128x64_1_0) (rowOf a8)

end Network

end Cert.KernelIdeal.Chain

end
-- ==== Proof.KernelValue.lean ====
/-
  The idealized kernel's two results as functions of the arguments.

  The generated fold gives every buffer's contents at each boundary of @main: after the first stretch of host
  operations, after the message region, after the second stretch, after the edge region, after the node region. Read
  backwards from the two result buffers: a region's output array is the dense layer of the arrays the region finds
  (the blocks module); a buffer a region does not write keeps what it held; a host operation's result is its function
  of its operands' contents. What the regions find are the gathered source features, the transposed weights and the
  bias rows of the first stretch, and, for the two later regions, the mean of the messages over each node's incoming
  edges and its rows gathered per edge, both made by the second stretch from the message region's output. Put
  together these are `Chain.nodeOut` and `Chain.edgeOut` of the eleven arguments.
-/
import proofs.«136239_j83425444757686_1_alg».proof.Proof.Gen.KernelIdeal.Frame
import proofs.«136239_j83425444757686_1_alg».proof.Proof.KernelBlocks
import proofs.«136239_j83425444757686_1_alg».proof.Proof.KernelRun
import proofs.«136239_j83425444757686_1_alg».proof.Proof.Chain
import Idealize.ShloMosaic.Lib.StableHlo.Run

set_option maxRecDepth 16384

noncomputable section

namespace Cert.KernelIdeal.Results

open Cert.KernelIdeal Cert.KernelIdeal.Gen Cert.KernelIdeal.Blocks Cert.KernelIdeal.Chain Cert.Dense
open Idealize.ShloMosaic Idealize.ShloMosaic.TcCoe Idealize.SL.Sem

variable (m : (ℓ : Loc nD τ sig) → Buf (Elt Ideal) ℓ) (ρ : Dev nD → PrngReg)

/-! ## After the first stretch of host operations -/

theorem W1_v6 (c : Dev nD) : W1 m ρ c (Proc.devRef .tc main_v6) = rowsAt (m ((c : Thread nD τ).loc main_arg0)) (m ((c : Thread nD τ).loc main_arg3)) := by
  show StableHlo.after hostOps0 (W0 m ρ c) (Proc.devRef .tc main_v6) = _
  after_results
  all_goals rfl

theorem W1_v7 (c : Dev nD) : W1 m ρ c (Proc.devRef .tc main_v7) = transpose S96x64 [1, 0] (m ((c : Thread nD τ).loc main_arg5)) transposes_S64x96_S96x64_1_0 := by
  show StableHlo.after hostOps0 (W0 m ρ c) (Proc.devRef .tc main_v7) = _
  after_results
  all_goals rfl

theorem W1_v8 (c : Dev nD) : W1 m ρ c (Proc.devRef .tc main_v8) = rowOf (m ((c : Thread nD τ).loc main_arg6)) := by
  show StableHlo.after hostOps0 (W0 m ρ c) (Proc.devRef .tc main_v8) = _
  after_results
  exact shapeCast_eq_rowOf _ _

theorem W1_v9 (c : Dev nD) : W1 m ρ c (Proc.devRef .tc main_v9) = transpose S128x64 [1, 0] (m ((c : Thread nD τ).loc main_arg7)) transposes_S64x128_S128x64_1_0 := by
  show StableHlo.after hostOps0 (W0 m ρ c) (Proc.devRef .tc main_v9) = _
  after_results
  all_goals rfl

theorem W1_v10 (c : Dev nD) : W1 m ρ c (Proc.devRef .tc main_v10) = rowOf (m ((c : Thread nD τ).loc main_arg8)) := by
  show StableHlo.after hostOps0 (W0 m ρ c) (Proc.devRef .tc main_v10) = _
  after_results
  exact shapeCast_eq_rowOf _ _

theorem W1_v11 (c : Dev nD) : W1 m ρ c (Proc.devRef .tc main_v11) = transpose S160x64 [1, 0] (m ((c : Thread nD τ).loc main_arg9)) transposes_S64x160_S160x64_1_0 := by
  show StableHlo.after hostOps0 (W0 m ρ c) (Proc.devRef .tc main_v11) = _
  after_results
  all_goals rfl

theorem W1_v12 (c : Dev nD) : W1 m ρ c (Proc.devRef .tc main_v12) = rowOf (m ((c : Thread nD τ).loc main_arg10)) := by
  show StableHlo.after hostOps0 (W0 m ρ c) (Proc.devRef .tc main_v12) = _
  after_results
  exact shapeCast_eq_rowOf _ _

theorem W1_arg1 (c : Dev nD) : W1 m ρ c (Proc.devRef .tc main_arg1) = (m ((c : Thread nD τ).loc main_arg1)) := by
  show StableHlo.after hostOps0 (W0 m ρ c) (Proc.devRef .tc main_arg1) = _
  after_results
  all_goals rfl

theorem W1_arg2 (c : Dev nD) : W1 m ρ c (Proc.devRef .tc main_arg2) = (m ((c : Thread nD τ).loc main_arg2)) := by
  show StableHlo.after hostOps0 (W0 m ρ c) (Proc.devRef .tc main_arg2) = _
  after_results
  all_goals rfl

theorem W1_arg4 (c : Dev nD) : W1 m ρ c (Proc.devRef .tc main_arg4) = (m ((c : Thread nD τ).loc main_arg4)) := by
  show StableHlo.after hostOps0 (W0 m ρ c) (Proc.devRef .tc main_arg4) = _
  after_results
  all_goals rfl

/-! ## After the message region -/

/-- The message region's output array: the messages. -/
theorem W2_v13 (c : Dev nD) : W2 m ρ c (Proc.devRef .tc main_v13) = msgs (m ((c : Thread nD τ).loc main_arg0)) (m ((c : Thread nD τ).loc main_arg2)) (m ((c : Thread nD τ).loc main_arg3)) (m ((c : Thread nD τ).loc main_arg5)) (m ((c : Thread nD τ).loc main_arg6)) := by
  refine ((W2_arr m ρ c 4).trans (final0 (V1 m ρ) c)).trans ?_
  show denseRelu2 _ (W1 m ρ c (Proc.devRef .tc main_v6)) (W1 m ρ c (Proc.devRef .tc main_arg2)) (W1 m ρ c (Proc.devRef .tc main_v7)) (W1 m ρ c (Proc.devRef .tc main_v8)) = _
  rw [W1_v6, W1_arg2, W1_v7, W1_v8]
  rfl

/-- An input window's array is left as the region found it. -/
theorem W2_v6 (c : Dev nD) : W2 m ρ c (Proc.devRef .tc main_v6) = rowsAt (m ((c : Thread nD τ).loc main_arg0)) (m ((c : Thread nD τ).loc main_arg3)) :=
  (W2_arr m ρ c 0).trans (((dat0 (V1 m ρ) c).arrAt_in 0 rfl _).trans ((A_eq0 (V1 m ρ) c 0).trans (W1_v6 m ρ c)))

theorem W2_v9 (c : Dev nD) : W2 m ρ c (Proc.devRef .tc main_v9) = transpose S128x64 [1, 0] (m ((c : Thread nD τ).loc main_arg7)) transposes_S64x128_S128x64_1_0 :=
  (W2_of_ne m ρ c main_v9 (by decide)).trans (W1_v9 m ρ c)

theorem W2_v10 (c : Dev nD) : W2 m ρ c (Proc.devRef .tc main_v10) = rowOf (m ((c : Thread nD τ).loc main_arg8)) :=
  (W2_of_ne m ρ c main_v10 (by decide)).trans (W1_v10 m ρ c)

theorem W2_v11 (c : Dev nD) : W2 m ρ c (Proc.devRef .tc main_v11) = transpose S160x64 [1, 0] (m ((c : Thread nD τ).loc main_arg9)) transposes_S64x160_S160x64_1_0 :=
  (W2_of_ne m ρ c main_v11 (by decide)).trans (W1_v11 m ρ c)

theorem W2_v12 (c : Dev nD) : W2 m ρ c (Proc.devRef .tc main_v12) = rowOf (m ((c : Thread nD τ).loc main_arg10)) :=
  (W2_of_ne m ρ c main_v12 (by decide)).trans (W1_v12 m ρ c)

theorem W2_arg1 (c : Dev nD) : W2 m ρ c (Proc.devRef .tc main_arg1) = (m ((c : Thread nD τ).loc main_arg1)) :=
  (W2_of_ne m ρ c main_arg1 (by decide)).trans (W1_arg1 m ρ c)

/-- An input window's array is left as the region found it. -/
theorem W2_arg2 (c : Dev nD) : W2 m ρ c (Proc.devRef .tc main_arg2) = (m ((c : Thread nD τ).loc main_arg2)) :=
  (W2_arr m ρ c 1).trans (((dat0 (V1 m ρ) c).arrAt_in 1 rfl _).trans ((A_eq0 (V1 m ρ) c 1).trans (W1_arg2 m ρ c)))

theorem W2_arg4 (c : Dev nD) : W2 m ρ c (Proc.devRef .tc main_arg4) = (m ((c : Thread nD τ).loc main_arg4)) :=
  (W2_of_ne m ρ c main_arg4 (by decide)).trans (W1_arg4 m ρ c)

/-! ## After the second stretch of host operations -/

/-- The neighbourhood feature: the mean of the messages over each node's incoming edges. -/
theorem W3_v25 (c : Dev nD) : W3 m ρ c (Proc.devRef .tc main_v25) = hNeigh (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v25) = _
  after_results
  rw [W2_arg4, W2_v13]
  rfl

set_option maxHeartbeats 2000000 in
/-- Its rows gathered at each edge's destination. -/
theorem W3_v32 (c : Dev nD) : W3 m ρ c (Proc.devRef .tc main_v32) = rowsAt (hNeigh (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) := by
  show StableHlo.after hostOps1 (W2 m ρ c) (Proc.devRef .tc main_v32) = _
  after_results_simp
  rw [W2_arg4, W2_v13]
  rfl

theorem W3_v6 (c : Dev nD) : W3 m ρ c (Proc.devRef .tc main_v6) = rowsAt (m ((c : Thread nD τ).loc main_arg0)) (m ((c : Thread nD τ).loc main_arg3)) := by
  show StableHlo.after hostOps1 (W2 m ρ c) (Proc.devRef .tc main_v6) = _
  after_results
  exact W2_v6 m ρ c

theorem W3_v9 (c : Dev nD) : W3 m ρ c (Proc.devRef .tc main_v9) = transpose S128x64 [1, 0] (m ((c : Thread nD τ).loc main_arg7)) transposes_S64x128_S128x64_1_0 := by
  show StableHlo.after hostOps1 (W2 m ρ c) (Proc.devRef .tc main_v9) = _
  after_results
  exact W2_v9 m ρ c

theorem W3_v10 (c : Dev nD) : W3 m ρ c (Proc.devRef .tc main_v10) = rowOf (m ((c : Thread nD τ).loc main_arg8)) := by
  show StableHlo.after hostOps1 (W2 m ρ c) (Proc.devRef .tc main_v10) = _
  after_results
  exact W2_v10 m ρ c

theorem W3_v11 (c : Dev nD) : W3 m ρ c (Proc.devRef .tc main_v11) = transpose S160x64 [1, 0] (m ((c : Thread nD τ).loc main_arg9)) transposes_S64x160_S160x64_1_0 := by
  show StableHlo.after hostOps1 (W2 m ρ c) (Proc.devRef .tc main_v11) = _
  after_results
  exact W2_v11 m ρ c

theorem W3_v12 (c : Dev nD) : W3 m ρ c (Proc.devRef .tc main_v12) = rowOf (m ((c : Thread nD τ).loc main_arg10)) := by
  show StableHlo.after hostOps1 (W2 m ρ c) (Proc.devRef .tc main_v12) = _
  after_results
  exact W2_v12 m ρ c

theorem W3_arg1 (c : Dev nD) : W3 m ρ c (Proc.devRef .tc main_arg1) = (m ((c : Thread nD τ).loc main_arg1)) := by
  show StableHlo.after hostOps1 (W2 m ρ c) (Proc.devRef .tc main_arg1) = _
  after_results
  exact W2_arg1 m ρ c

theorem W3_arg2 (c : Dev nD) : W3 m ρ c (Proc.devRef .tc main_arg2) = (m ((c : Thread nD τ).loc main_arg2)) := by
  show StableHlo.after hostOps1 (W2 m ρ c) (Proc.devRef .tc main_arg2) = _
  after_results
  exact W2_arg2 m ρ c

/-! ## After the edge region -/

/-- The edge region's output array: the edge update. -/
theorem W4_v33 (c : Dev nD) : W4 m ρ c (Proc.devRef .tc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine ((W4_arr m ρ c 5).trans (final1 (V3 m ρ) c)).trans ?_
  show dense3 _ (W3 m ρ c (Proc.devRef .tc main_v6)) (W3 m ρ c (Proc.devRef .tc main_arg2)) (W3 m ρ c (Proc.devRef .tc main_v32)) (W3 m ρ c (Proc.devRef .tc main_v11)) (W3 m ρ c (Proc.devRef .tc main_v12)) = _
  rw [W3_v6, W3_arg2, W3_v32, W3_v11, W3_v12]
  rfl

theorem W4_v9 (c : Dev nD) : W4 m ρ c (Proc.devRef .tc main_v9) = transpose S128x64 [1, 0] (m ((c : Thread nD τ).loc main_arg7)) transposes_S64x128_S128x64_1_0 :=
  (W4_of_ne m ρ c main_v9 (by decide)).trans (W3_v9 m ρ c)

theorem W4_v10 (c : Dev nD) : W4 m ρ c (Proc.devRef .tc main_v10) = rowOf (m ((c : Thread nD τ).loc main_arg8)) :=
  (W4_of_ne m ρ c main_v10 (by decide)).trans (W3_v10 m ρ c)

theorem W4_arg1 (c : Dev nD) : W4 m ρ c (Proc.devRef .tc main_arg1) = (m ((c : Thread nD τ).loc main_arg1)) :=
  (W4_of_ne m ρ c main_arg1 (by decide)).trans (W3_arg1 m ρ c)

theorem W4_v25 (c : Dev nD) : W4 m ρ c (Proc.devRef .tc main_v25) = hNeigh (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v25 (by decide)).trans (W3_v25 m ρ c)

/-! ## After the node region: the two results -/

/-- The node update's array. -/
theorem res_node (c : Dev nD) : W5 m ρ c (Proc.devRef .tc main_v34) = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W5_arr m ρ c 4).trans (final2 (V4 m ρ) c)).trans ?_
  show dense2 _ (W4 m ρ c (Proc.devRef .tc main_arg1)) (W4 m ρ c (Proc.devRef .tc main_v25)) (W4 m ρ c (Proc.devRef .tc main_v9)) (W4 m ρ c (Proc.devRef .tc main_v10)) = _
  rw [W4_arg1, W4_v25, W4_v9, W4_v10]
  rfl

/-- The edge update's array: the node region does not touch it. -/
theorem res_edge (c : Dev nD) : W5 m ρ c (Proc.devRef .tc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W5_of_ne m ρ c main_v33 (by decide)).trans (W4_v33 m ρ c)

/-- The idealized kernel's run with its results read: every weakly fair execution ends with the node update's array
    at `nodeOut` and the edge update's at `edgeOut` of the arguments, the arguments as launched. -/
theorem run_values : θ_run defs (onTc (τ := τ) (main (F := Ideal))) ⟨m, fun _ => 0, ρ⟩ (fun r => ∀ c : Dev nD,
      r.2.mem ((c.tc : Thread nD τ).loc main_v34) = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (res_node m ρ c), (h c).2.1.trans (res_edge m ρ c), (h c).2.2⟩)
    (run_results m ρ)

end Cert.KernelIdeal.Results

end
-- ==== Proof.RefValue.lean ====
/-
  The reference's two results are the same functions of the arguments.

  The reference computes each dense layer on the whole arrays: it concatenates the inputs along the columns,
  multiplies by the transposed weights, and adds the bias broadcast over the rows (for the messages it then takes the
  maximum with zero). Read at an entry (p, q), stage by stage, that is `linRow` of row p of the inputs laid end to
  end: the product a sum over the contracted axis, the concatenation a row of each piece, the double broadcast of the
  bias its entry q. Between the layers the reference applies the very gather and mean the kernel's program applies,
  to operands that are then equal. So its results are `Chain.nodeOut` and `Chain.edgeOut` of its arguments.
-/
import proofs.«136239_j83425444757686_1_alg».proof.Proof.Gen.ReferenceIdeal.Read
import proofs.«136239_j83425444757686_1_alg».proof.Proof.Chain
import proofs.«136239_j83425444757686_1_alg».proof.Proof.Dense

noncomputable section

namespace Cert.ReferenceIdeal.RefValue

open Cert.ReferenceIdeal Cert.ReferenceIdeal.Gen Cert.ReferenceIdeal.Read Cert.Dense
open Idealize.ShloMosaic Idealize.ShloMosaic.ValueIdx

variable (x0 x1 : (⟨S100000x64, .f32⟩ : BufTy).Contents (Elt Ideal)) (x2 : (⟨S1600000x32, .f32⟩ : BufTy).Contents (Elt Ideal))
  (x3 x4 : (⟨S1600000, .i32⟩ : BufTy).Contents (Elt Ideal))
  (x5 : (⟨S64x96, .f32⟩ : BufTy).Contents (Elt Ideal)) (x6 : (⟨S64, .f32⟩ : BufTy).Contents (Elt Ideal))
  (x7 : (⟨S64x128, .f32⟩ : BufTy).Contents (Elt Ideal)) (x8 : (⟨S64, .f32⟩ : BufTy).Contents (Elt Ideal))
  (x9 : (⟨S64x160, .f32⟩ : BufTy).Contents (Elt Ideal)) (x10 : (⟨S64, .f32⟩ : BufTy).Contents (Elt Ideal))

/-! ## The shared host operations: the same terms -/

/-- The gathered source features are the kernel program's gather of the same operands. -/
theorem v6_eq : val_main_v6 (F := Ideal) x0 x3 = Cert.KernelIdeal.Chain.rowsAt x0 x3 := rfl

/-- The neighbourhood feature is the kernel program's mean of the reference's messages. -/
theorem v25_eq : val_main_v25 (F := Ideal) x0 x2 x3 x4 x5 x6 = Cert.KernelIdeal.Chain.meanAt x4 (val_main_v13 (F := Ideal) x0 x2 x3 x5 x6) := rfl

/-- Its rows at the destinations are the kernel program's gather of it. -/
theorem v32_eq : val_main_v32 (F := Ideal) x0 x2 x3 x4 x5 x6 = Cert.KernelIdeal.Chain.rowsAt (val_main_v25 (F := Ideal) x0 x2 x3 x4 x5 x6) x4 := rfl

theorem v8_eq : val_main_v8 (F := Ideal) x5 = transpose Cert.KernelIdeal.S96x64 [1, 0] x5 Cert.KernelIdeal.Gen.transposes_S64x96_S96x64_1_0 := rfl
theorem v34_eq : val_main_v34 (F := Ideal) x9 = transpose Cert.KernelIdeal.S160x64 [1, 0] x9 Cert.KernelIdeal.Gen.transposes_S64x160_S160x64_1_0 := rfl
theorem v40_eq : val_main_v40 (F := Ideal) x7 = transpose Cert.KernelIdeal.S128x64 [1, 0] x7 Cert.KernelIdeal.Gen.transposes_S64x128_S128x64_1_0 := rfl

/-! ## The messages -/

/-- The concatenated message input at (p, k): row p of the source features, then row p of the edge features. -/
theorem v7_apply (p : Fin 1600000) (k : Fin 96) :
    val_main_v7 (F := Ideal) x0 x2 x3 (ix2 p k)
      = catRow2 (show 64 + 32 = 96 from rfl) (fun c => Cert.KernelIdeal.Chain.rowsAt x0 x3 (ix2 p c)) (fun c => x2 (ix2 p c)) k := by
  unfold val_main_v7
  rw [v6_eq]
  exact concatenate_row2 (show 64 + 32 = 96 from rfl) _ _ _ p k

/-- The reference's messages are the network's. -/
theorem msgs_eq : val_main_v13 (F := Ideal) x0 x2 x3 x5 x6 = Cert.KernelIdeal.Chain.msgs x0 x2 x3 x5 x6 := by
  funext i
  obtain ⟨p, q, rfl⟩ : ∃ (p : Fin 1600000) (q : Fin 64), i = ix2 p q := ⟨i 0, i 1, eq_ix2 i⟩
  have hl : ∀ k : Fin 96, lidx_main_v9 (ix2 p q) k = ix2 p k := fun k => funext fun a => Fin.ext (by
    match a with
    | ⟨0, _⟩ => rfl
    | ⟨1, _⟩ => rfl)
  have hr : ∀ k : Fin 96, ridx_main_v9 (ix2 p q) k = ix2 k q := fun k => funext fun a => Fin.ext (by
    match a with
    | ⟨0, _⟩ => rfl
    | ⟨1, _⟩ => rfl)
  have hb : idx_main_v10 (idx_main_v11 (ix2 p q)) = ix1 q := funext fun a => Fin.ext (by
    match a with
    | ⟨0, _⟩ => rfl)
  rw [val_main_v13_apply, val_main_v12_apply, val_main_v9_apply, val_main_v11_apply, val_main_v10_apply,
    val_main_call0_v0_apply, val_main_call0_cst_apply, hb]
  simp only [hl, hr, v7_apply, v8_eq]
  unfold Cert.KernelIdeal.Chain.msgs
  rw [denseRelu2_apply]
  unfold linRow
  show max ((∑ k : Fin 96, _) + _) (Ideal.ofBits .f32 0x00000000#32) = _
  rw [Ideal.ofBits_zero_f32]
  rfl

/-- So the reference's neighbourhood feature is the network's. -/
theorem hNeigh_eq : val_main_v25 (F := Ideal) x0 x2 x3 x4 x5 x6 = Cert.KernelIdeal.Chain.hNeigh x0 x2 x3 x4 x5 x6 := by
  rw [v25_eq, msgs_eq]
  rfl

/-! ## The edge update -/

/-- The concatenated edge input at (p, k): row p of the source features, of the edge features, and of the
    neighbourhood feature gathered at the destination. -/
theorem v33_apply (p : Fin 1600000) (k : Fin 160) :
    val_main_v33 (F := Ideal) x0 x2 x3 x4 x5 x6 (ix2 p k)
      = catRow3 (show 64 + 32 + 64 = 160 from rfl) (fun c => Cert.KernelIdeal.Chain.rowsAt x0 x3 (ix2 p c)) (fun c => x2 (ix2 p c))
          (fun c => Cert.KernelIdeal.Chain.rowsAt (Cert.KernelIdeal.Chain.hNeigh x0 x2 x3 x4 x5 x6) x4 (ix2 p c)) k := by
  unfold val_main_v33
  rw [v6_eq, v32_eq, hNeigh_eq]
  exact concatenate_row3 (show 64 + 32 + 64 = 160 from rfl) _ _ _ _ p k

/-- The reference's edge update is the network's. -/
theorem edge_eq : val_main_v38 (F := Ideal) x0 x2 x3 x4 x5 x6 x9 x10 = Cert.KernelIdeal.Chain.edgeOut x0 x2 x3 x4 x5 x6 x9 x10 := by
  funext i
  obtain ⟨p, q, rfl⟩ : ∃ (p : Fin 1600000) (q : Fin 64), i = ix2 p q := ⟨i 0, i 1, eq_ix2 i⟩
  have hl : ∀ k : Fin 160, lidx_main_v35 (ix2 p q) k = ix2 p k := fun k => funext fun a => Fin.ext (by
    match a with
    | ⟨0, _⟩ => rfl
    | ⟨1, _⟩ => rfl)
  have hr : ∀ k : Fin 160, ridx_main_v35 (ix2 p q) k = ix2 k q := fun k => funext fun a => Fin.ext (by
    match a with
    | ⟨0, _⟩ => rfl
    | ⟨1, _⟩ => rfl)
  have hb : idx_main_v36 (idx_main_v37 (ix2 p q)) = ix1 q := funext fun a => Fin.ext (by
    match a with
    | ⟨0, _⟩ => rfl)
  rw [val_main_v38_apply, val_main_v35_apply, val_main_v37_apply, val_main_v36_apply, hb]
  simp only [hl, hr, v33_apply, v34_eq]
  unfold Cert.KernelIdeal.Chain.edgeOut
  rw [dense3_apply]
  rfl

/-! ## The node update -/

/-- The concatenated node input at (p, k): row p of the destination features, then of the neighbourhood feature. -/
theorem v39_apply (p : Fin 100000) (k : Fin 128) :
    val_main_v39 (F := Ideal) x0 x1 x2 x3 x4 x5 x6 (ix2 p k)
      = catRow2 (show 64 + 64 = 128 from rfl) (fun c => x1 (ix2 p c)) (fun c => Cert.KernelIdeal.Chain.hNeigh x0 x2 x3 x4 x5 x6 (ix2 p c)) k := by
  unfold val_main_v39
  rw [hNeigh_eq]
  exact concatenate_row2 (show 64 + 64 = 128 from rfl) _ _ _ p k

/-- The reference's node update is the network's. -/
theorem node_eq : val_main_v44 (F := Ideal) x0 x1 x2 x3 x4 x5 x6 x7 x8 = Cert.KernelIdeal.Chain.nodeOut x0 x1 x2 x3 x4 x5 x6 x7 x8 := by
  funext i
  obtain ⟨p, q, rfl⟩ : ∃ (p : Fin 100000) (q : Fin 64), i = ix2 p q := ⟨i 0, i 1, eq_ix2 i⟩
  have hl : ∀ k : Fin 128, lidx_main_v41 (ix2 p q) k = ix2 p k := fun k => funext fun a => Fin.ext (by
    match a with
    | ⟨0, _⟩ => rfl
    | ⟨1, _⟩ => rfl)
  have hr : ∀ k : Fin 128, ridx_main_v41 (ix2 p q) k = ix2 k q := fun k => funext fun a => Fin.ext (by
    match a with
    | ⟨0, _⟩ => rfl
    | ⟨1, _⟩ => rfl)
  have hb : idx_main_v42 (idx_main_v43 (ix2 p q)) = ix1 q := funext fun a => Fin.ext (by
    match a with
    | ⟨0, _⟩ => rfl)
  rw [val_main_v44_apply, val_main_v41_apply, val_main_v43_apply, val_main_v42_apply, hb]
  simp only [hl, hr, v39_apply, v40_eq]
  unfold Cert.KernelIdeal.Chain.nodeOut
  rw [dense2_apply]
  rfl

end Cert.ReferenceIdeal.RefValue

end
-- ==== Proof.lean ====
/-
  A three-layer message-passing step on a graph of 100000 nodes and 1600000 edges, against its plain array
  reference, over the extended reals.

  Both programs compute: the source node's features gathered per edge; the messages max ([source | edge features] ·
  W_msgᵀ + b_msg, 0); per node the mean of the messages on its incoming edges (a scatter-add of the messages and of
  ones, the count raised to at least one, a division); the edge update [source | edge features | mean at the
  destination] · W_edgeᵀ + b_edge; and the node update [destination features | mean] · W_applyᵀ + b_apply. The kernel's
  program runs the three dense layers as pipelined regions over blocks of 16000 edges or 10000 nodes, the operands
  narrowed to bf16 before the product, which changes nothing at the extended reals; the reference runs them as whole
  matrix products. The gathers, the scatter-adds and the division are the same host operations in both.

  The proof reads each region's output array as the dense layer of the arrays it finds (`KernelBlocks`), follows the
  buffers through @main to get the two results as `Chain.nodeOut` and `Chain.edgeOut` of the arguments
  (`KernelValue`), and reads the reference's stages at an entry to get the same two functions (`RefValue`). No law of
  arithmetic is needed beyond 0 + x = x for the zero accumulator: both sides are the same sums of the same products,
  so the precondition is not opened.
-/
import proofs.«136239_j83425444757686_1_alg».proof.Defs
import proofs.«136239_j83425444757686_1_alg».proof.Proof.Gen.Kernel
import proofs.«136239_j83425444757686_1_alg».proof.Proof.Gen.Kernel.Skeleton
import proofs.«136239_j83425444757686_1_alg».proof.Proof.Gen.Kernel.Launch
import proofs.«136239_j83425444757686_1_alg».proof.Proof.Gen.Kernel.Points
import proofs.«136239_j83425444757686_1_alg».proof.Proof.Gen.Kernel.Frame
import proofs.«136239_j83425444757686_1_alg».proof.Proof.Gen.KernelIdeal
import proofs.«136239_j83425444757686_1_alg».proof.Proof.Gen.KernelIdeal.Skeleton
import proofs.«136239_j83425444757686_1_alg».proof.Proof.Gen.KernelIdeal.Launch
import proofs.«136239_j83425444757686_1_alg».proof.Proof.Gen.KernelIdeal.Points
import proofs.«136239_j83425444757686_1_alg».proof.Proof.Gen.KernelIdeal.Frame
import proofs.«136239_j83425444757686_1_alg».proof.Proof.Gen.ReferenceIdeal
import proofs.«136239_j83425444757686_1_alg».proof.Proof.Gen.Pre_finite_inputs
import proofs.«136239_j83425444757686_1_alg».proof.Proof.Gen.ReferenceIdeal.Run
import proofs.«136239_j83425444757686_1_alg».proof.Proof.Gen.ReferenceIdeal.Read
import proofs.«136239_j83425444757686_1_alg».proof.Proof.KernelValue
import proofs.«136239_j83425444757686_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments, the idealized kernel ends with the node update at `nodeOut` and the
    edge update at `edgeOut` of its arguments, and the reference ends with the same two functions of its own. -/
theorem algebraic : Cert.algebraic_KernelIdeal_ReferenceIdeal := by
  intro m ρ m' ρ' _ hagree
  refine ⟨fun c => Cert.KernelIdeal.Chain.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.Chain.edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Results.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v44_eq, Cert.ReferenceIdeal.RefValue.node_eq, e0, e1, e2, e3, e4, e5, e6, e7, e8]
  · obtain ⟨e0, e1, e2, e3, e4, e5, e6, e7, e8, e9, e10⟩ := hagree c
    rw [Cert.ReferenceIdeal.Read.val_main_v38_eq, Cert.ReferenceIdeal.RefValue.edge_eq, e0, e2, e3, e4, e5, e6, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
